-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x32x512 : Shape := ⟨4, ![64, 32, 32, 512]⟩
abbrev S512x64 : Shape := ⟨2, ![512, 64]⟩
abbrev S_ : Shape := ⟨0, ![]⟩

class Facts : Prop where
  bcast_S_S64x32x32x512 : S_.BroadcastsInDim S64x32x32x512 (![] : Fin 0 → Fin S64x32x32x512.rank)
  reducesTo_S64x32x32x512_S_d0_1_2_3 : S64x32x32x512.ReducesTo [0, 1, 2, 3] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S64x32x32x512 .f32) (main_arg1 : FVec F S512x64 .f32) (main_arg2 : FVec F S512x64 .f32) : IVec S_ 1 :=
  let main_v0 : FVec F S64x32x32x512 .f32 := Host.absf main_arg0
  let main_cst : FVec F S_ .f32 := constant S_ .f32 0x7F800000#32
  let main_v1 : FVec F S64x32x32x512 .f32 := broadcastInDim S64x32x32x512 ![] bcast_S_S64x32x32x512 main_cst
  let main_v2 : IVec S64x32x32x512 1 := cmpf .olt main_v0 main_v1
  let main_c : IVec S_ 1 := constantI S_ 1 1#1
  let main_v3 : IVec S_ 1 := (fun x v => Host.reduce IntOp.andi x v reducesTo_S64x32x32x512_S_d0_1_2_3 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  main_v13
-- ==== Kernel.lean ====
abbrev S64x32x32x512 : Shape := ⟨4, ![64, 32, 32, 512]⟩
abbrev S512x64 : Shape := ⟨2, ![512, 64]⟩
abbrev S64x1x32768 : Shape := ⟨3, ![64, 1, 32768]⟩
abbrev S1x32x32x512 : Shape := ⟨4, ![1, 32, 32, 512]⟩
abbrev S1x1x32768 : Shape := ⟨3, ![1, 1, 32768]⟩
abbrev S32x32x512 : Shape := ⟨3, ![32, 32, 512]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S64x512 : Shape := ⟨2, ![64, 512]⟩
abbrev S64 : Shape := ⟨1, ![64]⟩
abbrev S64x1 : Shape := ⟨2, ![64, 1]⟩
abbrev S1x1 : Shape := ⟨2, ![1, 1]⟩
abbrev S1x1x1 : Shape := ⟨3, ![1, 1, 1]⟩
abbrev S64x32768 : Shape := ⟨2, ![64, 32768]⟩

abbrev nBuf : Space → Nat
  | .hbm => 5
  | .vmem => 6
  | .smem => 0
  | _ => 0

abbrev bufTy : (tb : Table) → Fin (tcTables nBuf tb) → BufTy
  | .hbm, ⟨0, _⟩ => ⟨S64x32x32x512, .f32⟩
  | .hbm, ⟨1, _⟩ => ⟨S512x64, .f32⟩
  | .hbm, ⟨2, _⟩ => ⟨S512x64, .f32⟩
  | .hbm, ⟨3, _⟩ => ⟨S64x1x32768, .f32⟩
  | .hbm, ⟨4, _⟩ => ⟨S64x32768, .f32⟩
  | .local _ .vmem, ⟨0, _⟩ => ⟨S1x32x32x512, .f32⟩
  | .local _ .vmem, ⟨1, _⟩ => ⟨S1x32x32x512, .f32⟩
  | .local _ .vmem, ⟨2, _⟩ => ⟨S512x64, .f32⟩
  | .local _ .vmem, ⟨3, _⟩ => ⟨S512x64, .f32⟩
  | .local _ .vmem, ⟨4, _⟩ => ⟨S1x1x32768, .f32⟩
  | .local _ .vmem, ⟨5, _⟩ => ⟨S1x1x32768, .f32⟩
  | _, _ => ⟨S64x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x32x32x512_S1x32x32x512_0_0_0_0 : ∀ a, (![0, 0, 0, 0] : Fin 4 → Nat) a + S1x32x32x512.size a ≤ S1x32x32x512.size a
  h_S1x32x32x512 : 0 < S1x32x32x512.numel
  shapeCasts_S1x32x32x512_S32x32x512 : S1x32x32x512.ShapeCasts S32x32x512
  shapeCasts_S32x32x512_S1024x512 : S32x32x512.ShapeCasts S1024x512
  inb_S512x64_S512x64_0_0 : ∀ a, (![0, 0] : Fin 2 → Nat) a + S512x64.size a ≤ S512x64.size a
  h_S512x64 : 0 < S512x64.numel
  reduces_S1024x64_S1024 : S1024x64.Reduces [1] S1024
  shapeCasts_S1024_S1024x1 : S1024.ShapeCasts S1024x1
  broadcasts_S1024x1_S1024x64 : S1024x1.Broadcasts S1024x64
  reduces_S1024x64_S64 : S1024x64.Reduces [0] S64
  transposes_S512x64_p1_0_S64x512 : S512x64.Transposes [1, 0] S64x512
  shapeCasts_S64_S64x1 : S64.ShapeCasts S64x1
  broadcasts_S64x1_S64x512 : S64x1.Broadcasts S64x512
  reduces_S64x512_S64 : S64x512.Reduces [1] S64
  transposes_S64x512_p1_0_S512x64 : S64x512.Transposes [1, 0] S512x64
  shapeCasts_S512x64_S1x1x32768 : S512x64.ShapeCasts S1x1x32768
  reduces_S1x1x32768_S1x1 : S1x1x32768.Reduces [2] S1x1
  shapeCasts_S1x1_S1x1x1 : S1x1.ShapeCasts S1x1x1
  broadcasts_S1x1x1_S1x1x32768 : S1x1x1.Broadcasts S1x1x32768
  inb_S1x1x32768_S1x1x32768_0_0_0 : ∀ a, (![0, 0, 0] : Fin 3 → Nat) a + S1x1x32768.size a ≤ S1x1x32768.size a
  h_S1x1x32768 : 0 < S1x1x32768.numel
  shapeCasts_S64x1x32768_S64x32768 : S64x1x32768.ShapeCasts S64x32768
  dot_S1024x512_S512x64_S1024x64_1_0_0_1_n_n_wf : DotDims.WF S1024x512 S512x64 S1024x64 [1] [0] [0] [1] [] []
  dot_S1024x64_S1024x512_S64x512_0_0_1_1_n_n_wf : DotDims.WF S1024x64 S1024x512 S64x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x512.size a ≤ S64x32x32x512.size a
  hwx0_0 : ∀ i : grid0.Coords, EltTy.bits .f32 = 32 ∨ (Rect.block (s := S64x32x32x512) S1x32x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x32768.size a ≤ S64x1x32768.size a
  hwx0_3 : ∀ i : grid0.Coords, EltTy.bits .f32 = 32 ∨ (Rect.block (s := S64x1x32768) S1x1x32768.size (cc0_transform_3 i) (hinb0_3 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x64_S1024x512_S64x512_0_0_1_1_n_n : DotDims S1024x64 S1024x512 S64x512 where
  lhsContracting := [0]
  rhsContracting := [0]
  lhsNonContracting := [1]
  rhsNonContracting := [1]
  lhsBatch := []
  rhsBatch := []
  wf := dot_S1024x64_S1024x512_S64x512_0_0_1_1_n_n_wf

abbrev win0_0 : Pipeline.Window sig grid0 :=
  Pipeline.Window.ofSpec (Memref.whole main_arg0) S1x32x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x32768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x32x32x512 : Shape := ⟨4, ![64, 32, 32, 512]⟩
abbrev S512x64 : Shape := ⟨2, ![512, 64]⟩
abbrev S64x32x32x64 : Shape := ⟨4, ![64, 32, 32, 64]⟩
abbrev S_ : Shape := ⟨0, ![]⟩
abbrev S64x32x32 : Shape := ⟨3, ![64, 32, 32]⟩
abbrev S64x32x32x1 : Shape := ⟨4, ![64, 32, 32, 1]⟩
abbrev S64x1024x64 : Shape := ⟨3, ![64, 1024, 64]⟩
abbrev S64x1024x512 : Shape := ⟨3, ![64, 1024, 512]⟩
abbrev S64x64x512 : Shape := ⟨3, ![64, 64, 512]⟩
abbrev S64x64 : Shape := ⟨2, ![64, 64]⟩
abbrev S64x64x1 : Shape := ⟨3, ![64, 64, 1]⟩
abbrev S64x512 : Shape := ⟨2, ![64, 512]⟩
abbrev S1x64x512 : Shape := ⟨3, ![1, 64, 512]⟩
abbrev S64x512x64 : Shape := ⟨3, ![64, 512, 64]⟩
abbrev S64x32768 : Shape := ⟨2, ![64, 32768]⟩
abbrev S64 : Shape := ⟨1, ![64]⟩
abbrev S64x1 : Shape := ⟨2, ![64, 1]⟩

abbrev nBuf : Space → Nat
  | .hbm => 52
  | .vmem => 0
  | .smem => 0
  | _ => 0

abbrev bufTy : (tb : Table) → Fin (tcTables nBuf tb) → BufTy
  | .hbm, ⟨0, _⟩ => ⟨S64x32x32x512, .f32⟩
  | .hbm, ⟨1, _⟩ => ⟨S512x64, .f32⟩
  | .hbm, ⟨2, _⟩ => ⟨S512x64, .f32⟩
  | .hbm, ⟨3, _⟩ => ⟨S64x32x32x64, .f32⟩
  | .hbm, ⟨4, _⟩ => ⟨S_, .f32⟩
  | .hbm, ⟨5, _⟩ => ⟨S64x32x32, .f32⟩
  | .hbm, ⟨6, _⟩ => ⟨S_, .f32⟩
  | .hbm, ⟨7, _⟩ => ⟨S64x32x32, .f32⟩
  | .hbm, ⟨8, _⟩ => ⟨S64x32x32, .f32⟩
  | .hbm, ⟨9, _⟩ => ⟨S64x32x32x1, .f32⟩
  | .hbm, ⟨10, _⟩ => ⟨S64x32x32x64, .f32⟩
  | .hbm, ⟨11, _⟩ => ⟨S64x32x32x64, .f32⟩
  | .hbm, ⟨12, _⟩ => ⟨S64x32x32x64, .f32⟩
  | .hbm, ⟨13, _⟩ => ⟨S_, .f32⟩
  | .hbm, ⟨14, _⟩ => ⟨S64x32x32, .f32⟩
  | .hbm, ⟨15, _⟩ => ⟨S64x32x32x1, .f32⟩
  | .hbm, ⟨16, _⟩ => ⟨S64x32x32x64, .f32⟩
  | .hbm, ⟨17, _⟩ => ⟨S64x32x32x64, .f32⟩
  | .hbm, ⟨18, _⟩ => ⟨S64x1024x64, .f32⟩
  | .hbm, ⟨19, _⟩ => ⟨S64x1024x512, .f32⟩
  | .hbm, ⟨20, _⟩ => ⟨S64x64x512, .f32⟩
  | .hbm, ⟨21, _⟩ => ⟨S_, .f32⟩
  | .hbm, ⟨22, _⟩ => ⟨S64x64, .f32⟩
  | .hbm, ⟨23, _⟩ => ⟨S64x64x1, .f32⟩
  | .hbm, ⟨24, _⟩ => ⟨S64x512, .f32⟩
  | .hbm, ⟨25, _⟩ => ⟨S1x64x512, .f32⟩
  | .hbm, ⟨26, _⟩ => ⟨S64x64x512, .f32⟩
  | .hbm, ⟨27, _⟩ => ⟨S64x64x512, .f32⟩
  | .hbm, ⟨28, _⟩ => ⟨S64x64x512, .f32⟩
  | .hbm, ⟨29, _⟩ => ⟨S64x64x512, .f32⟩
  | .hbm, ⟨30, _⟩ => ⟨S64x64x512, .f32⟩
  | .hbm, ⟨31, _⟩ => ⟨S_, .f32⟩
  | .hbm, ⟨32, _⟩ => ⟨S64x64, .f32⟩
  | .hbm, ⟨33, _⟩ => ⟨S64x64x1, .f32⟩
  | .hbm, ⟨34, _⟩ => ⟨S_, .f32⟩
  | .hbm, ⟨35, _⟩ => ⟨S64x64x1, .f32⟩
  | .hbm, ⟨36, _⟩ => ⟨S64x64x1, .f32⟩
  | .hbm, ⟨37, _⟩ => ⟨S64x64x1, .f32⟩
  | .hbm, ⟨38, _⟩ => ⟨S64x64x512, .f32⟩
  | .hbm, ⟨39, _⟩ => ⟨S64x64x512, .f32⟩
  | .hbm, ⟨40, _⟩ => ⟨S64x512x64, .f32⟩
  | .hbm, ⟨41, _⟩ => ⟨S64x32768, .f32⟩
  | .hbm, ⟨42, _⟩ => ⟨S64x32768, .f32⟩
  | .hbm, ⟨43, _⟩ => ⟨S_, .f32⟩
  | .hbm, ⟨44, _⟩ => ⟨S64, .f32⟩
  | .hbm, ⟨45, _⟩ => ⟨S64x1, .f32⟩
  | .hbm, ⟨46, _⟩ => ⟨S_, .f32⟩
  | .hbm, ⟨47, _⟩ => ⟨S64x1, .f32⟩
  | .hbm, ⟨48, _⟩ => ⟨S64x1, .f32⟩
  | .hbm, ⟨49, _⟩ => ⟨S64x1, .f32⟩
  | .hbm, ⟨50, _⟩ => ⟨S64x32768, .f32⟩
  | .hbm, ⟨51, _⟩ => ⟨S64x32768, .f32⟩
  | _, _ => ⟨S64x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]

class Facts₀ : Prop where
  reducesTo_S64x32x32x64_S64x32x32_d3 : S64x32x32x64.ReducesTo [3] S64x32x32
  h_S_ : 0 < S_.numel
  bcast_S_S64x32x32 : S_.BroadcastsInDim S64x32x32 (![] : Fin 0 → Fin S64x32x32.rank)
  bcast_S64x32x32_S64x32x32x1_0_1_2 : S64x32x32.BroadcastsInDim S64x32x32x1 (![0, 1, 2] : Fin 3 → Fin S64x32x32x1.rank)
  bcast_S64x32x32x1_S64x32x32x64_0_1_2_3 : S64x32x32x1.BroadcastsInDim S64x32x32x64 (![0, 1, 2, 3] : Fin 4 → Fin S64x32x32x64.rank)
  shapeCasts_S64x32x32x64_S64x1024x64 : S64x32x32x64.ShapeCasts S64x1024x64
  shapeCasts_S64x32x32x512_S64x1024x512 : S64x32x32x512.ShapeCasts S64x1024x512
  reducesTo_S64x1024x64_S64x64_d1 : S64x1024x64.ReducesTo [1] S64x64
  bcast_S64x64_S64x64x1_0_1 : S64x64.BroadcastsInDim S64x64x1 (![0, 1] : Fin 2 → Fin S64x64x1.rank)
  transposes_S512x64_S64x512_1_0 : S512x64.Transposes [1, 0] S64x512
  bcast_S64x512_S1x64x512_1_2 : S64x512.BroadcastsInDim S1x64x512 (![1, 2] : Fin 2 → Fin S1x64x512.rank)
  bcast_S64x64x1_S64x64x512_0_1_2 : S64x64x1.BroadcastsInDim S64x64x512 (![0, 1, 2] : Fin 3 → Fin S64x64x512.rank)
  bcast_S1x64x512_S64x64x512_0_1_2 : S1x64x512.BroadcastsInDim S64x64x512 (![0, 1, 2] : Fin 3 → Fin S64x64x512.rank)
  reducesTo_S64x64x512_S64x64_d2 : S64x64x512.ReducesTo [2] S64x64
  bcast_S_S64x64x1 : S_.BroadcastsInDim S64x64x1 (![] : Fin 0 → Fin S64x64x1.rank)
  transposes_S64x64x512_S64x512x64_0_2_1 : S64x64x512.Transposes [0, 2, 1] S64x512x64
  shapeCasts_S64x512x64_S64x32768 : S64x512x64.ShapeCasts S64x32768
  reducesTo_S64x32768_S64_d1 : S64x32768.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x32768_0_1 : S64x1.BroadcastsInDim S64x32768 (![0, 1] : Fin 2 → Fin S64x32768.rank)
  dot_S64x32x32x512_S512x64_S64x32x32x64_3_0_012_1_n_n_wf : DotDims.WF S64x32x32x512 S512x64 S64x32x32x64 [3] [0] [0, 1, 2] [1] [] []
  dot_S64x1024x64_S64x1024x512_S64x64x512_1_1_2_2_0_0_wf : DotDims.WF S64x1024x64 S64x1024x512 S64x64x512 [1] [1] [2] [2] [0] [0]

variable [Facts₀]

def dot_S64x32x32x512_S512x64_S64x32x32x64_3_0_012_1_n_n : DotDims S64x32x32x512 S512x64 S64x32x32x64 where
  lhsContracting := [3]
  rhsContracting := [0]
  lhsNonContracting := [0, 1, 2]
  rhsNonContracting := [1]
  lhsBatch := []
  rhsBatch := []
  wf := dot_S64x32x32x512_S512x64_S64x32x32x64_3_0_012_1_n_n_wf
def dot_S64x1024x64_S64x1024x512_S64x64x512_1_1_2_2_0_0 : DotDims S64x1024x64 S64x1024x512 S64x64x512 where
  lhsContracting := [1]
  rhsContracting := [1]
  lhsNonContracting := [2]
  rhsNonContracting := [2]
  lhsBatch := [0]
  rhsBatch := [0]
  wf := dot_S64x1024x64_S64x1024x512_S64x64x512_1_1_2_2_0_0_wf

class Facts : Prop extends Facts₀ where

variable [Facts]
-- ==== Proof.LibRsqrtNorm.lean ====
/-
  Scaling to unit length on the extended reals: multiplying by a reciprocal square root against dividing by a square
  root.

  A kernel often writes `v * rsqrt (‖v‖² + ε)` where its reference writes `v / sqrt (‖v‖² + ε)`. On the extended reals the
  two agree for EVERY `v`, finite or not: `t * rsqrt y = t / √y` holds for every `t` once `0 < y` (at `y = ⊤` both sides are
  `t * 0`), and a sum of squares plus a positive `ε` is positive because a square is never negative there
  (`⊥ * ⊥ = ⊤`). At `y = 0`, at a negative `y` and at `⊥` the two spellings differ, so the positivity is needed.
-/
import Idealize.ShloMosaic.PureOps.Ideal
import Idealize.ShloMosaic.PureOps.Ideal.Laws

noncomputable section

open scoped BigOperators
open Idealize.ShloMosaic

namespace Cert.Lib.RsqrtNorm

/-- A square is never negative on the extended reals (`⊥ * ⊥ = ⊤ * ⊤ = ⊤`). -/
theorem ereal_mul_self_nonneg (a : EReal) : 0 ≤ a * a := by
  induction a using EReal.rec with
  | bot => rw [EReal.bot_mul_bot]; exact le_top
  | coe r => rw [← EReal.coe_mul]; exact EReal.coe_nonneg.mpr (mul_self_nonneg r)
  | top => rw [EReal.top_mul_top]; exact le_top

/-- A sum of squares over any finite index type is never negative. -/
theorem sum_mul_self_nonneg {ι : Type} [Fintype ι] (f : ι → EReal) : 0 ≤ ∑ i : ι, f i * f i :=
  Finset.sum_nonneg fun i _ => ereal_mul_self_nonneg (f i)

/-- A sum of squares plus a positive stabiliser is positive. -/
theorem sum_mul_self_add_pos {ι : Type} [Fintype ι] (f : ι → EReal) {e : EReal} (he : 0 < e) : 0 < (∑ i : ι, f i * f i) + e :=
  lt_of_lt_of_le he (le_add_of_nonneg_left (sum_mul_self_nonneg f))

/-- The f32 pattern nearest to 1e-12, `0x2B8CBCCC`, denotes a positive number. -/
theorem ofBits_1em12_pos : (0 : EReal) < Ideal.ofBits .f32 0x2B8CBCCC#32 := by
  simp [Ideal.ofBits, Ideal.ieee, -EReal.coe_mul]

/-- For a positive `y`, infinite or not, multiplying by `rsqrt y` is dividing by `√y`. -/
theorem mul_rsqrt_eq_div_sqrt {y : EReal} (hy : 0 < y) (t : EReal) : t * Ideal.rsqrt y = Ideal.div t (Ideal.sqrt y) := by
  induction y using EReal.rec with
  | bot => exact absurd hy (not_lt_bot)
  | coe r =>
    have hr : 0 < r := by exact_mod_cast hy
    have hs : (Real.sqrt r) ≠ 0 := (Real.sqrt_pos.mpr hr).ne'
    rw [Ideal.rsqrt_coe, Ideal.sqrt_coe, if_neg (not_lt.mpr hr.le), if_neg hr.ne', if_neg (not_lt.mpr hr.le), Ideal.div,
      if_neg (by exact_mod_cast hs), EReal.coe_inv]
  | top => rw [Ideal.rsqrt_top, Ideal.sqrt_top, Ideal.div, if_neg EReal.top_ne_zero, EReal.inv_top]

end Cert.Lib.RsqrtNorm

end
-- ==== Proof.Spec.lean ====
/-
  The mathematics both programs compute, for ONE image of the batch, over plain index functions.

  An image is `x n d` (pixel `n` of 1024, channel `d` of 512); `w d k` scores channel `d` for cluster `k` of 64; `c d k`
  is the cluster centre. The pixel's scores `s n k = ∑ d, x n d * w d k` are turned into a soft assignment
  `a n k = exp (s n k - max_k s n k) / ∑ k, exp (…)`; the residuals are aggregated per cluster without forming them,
  `u k d = ∑ n, a n k * x n d + (∑ n, a n k) * c d k`; each cluster's row is scaled to unit length,
  `p k d = u k d / √(∑ d, u k d ² + ε)`; the rows are laid out channel-major (`f (d * 64 + k) = p k d`) and the whole
  vector is scaled to unit length again.

  The two programs spell the scaling differently: one multiplies by the reciprocal square root, the other divides by
  the square root. On the extended reals `t * rsqrt y = t / √y` holds for every `t` as soon as `0 < y` (also at `y = ⊤`,
  where both sides are `t * 0`), and `y` here is a sum of squares plus a positive `ε`: squares are never negative on
  the extended reals (`⊥ * ⊥ = ⊤`), so no finiteness of the inputs is needed.
-/
import Idealize.ShloMosaic.PureOps.Ideal
import Idealize.ShloMosaic.PureOps.Ideal.Laws
import Idealize.ShloMosaic.Lib.ValueIdx
import proofs.«110298_j75557064672007_1_alg».proof.Proof.LibRsqrtNorm

noncomputable section

open scoped BigOperators
open Idealize.ShloMosaic

namespace Cert.Vlad

/-- The value the row maximum starts from: the f32 pattern of minus infinity, left as its pattern. -/
abbrev negInf : EReal := Ideal.ofBits .f32 0xFF800000#32
/-- The stabiliser under both square roots: the f32 pattern nearest to 1e-12, left as its pattern. -/
abbrev eps : EReal := Ideal.ofBits .f32 0x2B8CBCCC#32

/-- Image `b` of a batch of `B` images of 32 × 32 pixels and 512 channels, read as pixel × channel: pixel `n` is the one in
    row `n / 32`, column `n % 32`. -/
def imgOf {B : Nat} (X : (⟨4, ![B, 32, 32, 512]⟩ : Shape).Idx → EReal) (b : Fin B) (n : Fin 1024) (d : Fin 512) : EReal :=
  X (ValueIdx.ix4 b ⟨n.val / 32, by have := n.isLt; omega⟩ ⟨n.val % 32, Nat.mod_lt _ (by decide)⟩ d)

/-- A 512 × 64 array read as a function of its two coordinates. -/
def matOf (M : (⟨2, ![512, 64]⟩ : Shape).Idx → EReal) (d : Fin 512) (k : Fin 64) : EReal := M (ValueIdx.ix2 d k)

/-- A pixel's score for a cluster. -/
def score (x : Fin 1024 → Fin 512 → EReal) (w : Fin 512 → Fin 64 → EReal) (n : Fin 1024) (k : Fin 64) : EReal :=
  ∑ d : Fin 512, x n d * w d k

/-- A pixel's largest score, folded from minus infinity. -/
def rowMax (s : Fin 1024 → Fin 64 → EReal) (n : Fin 1024) : EReal :=
  max negInf ((Finset.univ : Finset (Fin 64)).fold max negInf (fun k => s n k))

/-- The shifted exponential of a score. -/
def expo (s : Fin 1024 → Fin 64 → EReal) (n : Fin 1024) (k : Fin 64) : EReal :=
  Ideal.exp (s n k - rowMax s n)

/-- A pixel's normaliser. -/
def expSum (e : Fin 1024 → Fin 64 → EReal) (n : Fin 1024) : EReal := ∑ k : Fin 64, e n k

/-- The soft assignment of a pixel to a cluster. -/
def assign (e : Fin 1024 → Fin 64 → EReal) (n : Fin 1024) (k : Fin 64) : EReal :=
  Ideal.div (e n k) (expSum e n)

/-- The assignment-weighted sum of the pixels, per cluster and channel. -/
def agg (a : Fin 1024 → Fin 64 → EReal) (x : Fin 1024 → Fin 512 → EReal) (k : Fin 64) (d : Fin 512) : EReal :=
  ∑ n : Fin 1024, a n k * x n d

/-- The total assignment a cluster receives. -/
def mass (a : Fin 1024 → Fin 64 → EReal) (k : Fin 64) : EReal := ∑ n : Fin 1024, a n k

/-- The aggregated residual: the weighted sum plus the cluster's mass times its centre. -/
def resid (a : Fin 1024 → Fin 64 → EReal) (x : Fin 1024 → Fin 512 → EReal) (c : Fin 512 → Fin 64 → EReal)
    (k : Fin 64) (d : Fin 512) : EReal :=
  agg a x k d + mass a k * c d k

/-- A cluster row's squared length, stabilised. -/
def sqLen1 (u : Fin 64 → Fin 512 → EReal) (k : Fin 64) : EReal := (∑ d : Fin 512, u k d * u k d) + eps

/-- The row scaled by the reciprocal square root of its squared length. -/
def intraMul (u : Fin 64 → Fin 512 → EReal) (k : Fin 64) (d : Fin 512) : EReal := u k d * Ideal.rsqrt (sqLen1 u k)
/-- The row divided by the square root of its squared length. -/
def intraDiv (u : Fin 64 → Fin 512 → EReal) (k : Fin 64) (d : Fin 512) : EReal := Ideal.div (u k d) (Ideal.sqrt (sqLen1 u k))

/-- The rows laid out channel-major: position `d * 64 + k` holds `p k d`. -/
def flat (p : Fin 64 → Fin 512 → EReal) (j : Fin 32768) : EReal :=
  p ⟨j.val % 64, Nat.mod_lt _ (by decide)⟩ ⟨j.val / 64, by have := j.isLt; omega⟩

/-- The whole vector's squared length, stabilised. -/
def sqLen2 (f : Fin 32768 → EReal) : EReal := (∑ j : Fin 32768, f j * f j) + eps

def globMul (f : Fin 32768 → EReal) (j : Fin 32768) : EReal := f j * Ideal.rsqrt (sqLen2 f)
def globDiv (f : Fin 32768 → EReal) (j : Fin 32768) : EReal := Ideal.div (f j) (Ideal.sqrt (sqLen2 f))

/-- The aggregated residuals of one image. -/
def residOf (x : Fin 1024 → Fin 512 → EReal) (w c : Fin 512 → Fin 64 → EReal) : Fin 64 → Fin 512 → EReal :=
  resid (assign (expo (score x w))) x c

/-- One image's result, scaling by reciprocal square roots. -/
def outMul (x : Fin 1024 → Fin 512 → EReal) (w c : Fin 512 → Fin 64 → EReal) : Fin 32768 → EReal :=
  globMul (flat (intraMul (residOf x w c)))
/-- One image's result, dividing by square roots. -/
def outDiv (x : Fin 1024 → Fin 512 → EReal) (w c : Fin 512 → Fin 64 → EReal) : Fin 32768 → EReal :=
  globDiv (flat (intraDiv (residOf x w c)))

/-! ## The law that joins the two spellings -/

/-- A cluster row's stabilised squared length is positive, whatever the row holds. -/
theorem sqLen1_pos (u : Fin 64 → Fin 512 → EReal) (k : Fin 64) : 0 < sqLen1 u k :=
  Cert.Lib.RsqrtNorm.sum_mul_self_add_pos (fun d => u k d) Cert.Lib.RsqrtNorm.ofBits_1em12_pos

/-- So is the whole vector's. -/
theorem sqLen2_pos (f : Fin 32768 → EReal) : 0 < sqLen2 f :=
  Cert.Lib.RsqrtNorm.sum_mul_self_add_pos f Cert.Lib.RsqrtNorm.ofBits_1em12_pos

theorem intraMul_eq_intraDiv (u : Fin 64 → Fin 512 → EReal) : intraMul u = intraDiv u :=
  funext fun k => funext fun d => Cert.Lib.RsqrtNorm.mul_rsqrt_eq_div_sqrt (sqLen1_pos u k) (u k d)

theorem globMul_eq_globDiv (f : Fin 32768 → EReal) : globMul f = globDiv f :=
  funext fun j => Cert.Lib.RsqrtNorm.mul_rsqrt_eq_div_sqrt (sqLen2_pos f) (f j)

/-- The two spellings of one image's result are one function. -/
theorem outMul_eq_outDiv (x : Fin 1024 → Fin 512 → EReal) (w c : Fin 512 → Fin 64 → EReal) : outMul x w c = outDiv x w c := by
  unfold outMul outDiv
  rw [intraMul_eq_intraDiv, globMul_eq_globDiv]

end Cert.Vlad

end
-- ==== Proof.LibAxisReads.lean ====
/-
  Reading a vector operation at an index, for the shapes a `keepdims=True` reduction produces: a vector seen as a
  column, a column repeated along the lanes, one number repeated to a row; and a float sum or maximum along one axis of
  a matrix (or along the long axis of a `[1, 1, b]` row) as a sum or a fold over that axis's coordinate. All sizes are
  variables. The reductions take their side conditions typed as a printed program spells them (`0x00000000#32 =
  0x00000000#32` for a sum's accumulator, `0xFF800000#32 = 0xFF800000#32` for a maximum's), so that they apply to a
  printed body directly; the results are at the ideal instance, where a sum is exact and a maximum is `max`.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.ShloMosaic.ValueIdx

namespace Cert.Lib.AxisReads

/-! ## Reshapings and broadcasts read at an index -/

section Layout
variable {α : Type}

/-- A vector of `a` numbers seen as a column `[a, 1]` reads, at row `i`, the vector at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along the lanes to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The one number of a `[1, 1, 1]` array repeated to a row `[1, 1, b]` reads that number at every position. -/
theorem broadcastTo_111_11b_apply {b : ℕ} (v : (⟨3, ![1, 1, 1]⟩ : Shape).Idx → α)
    (h : (⟨3, ![1, 1, 1]⟩ : Shape).Broadcasts ⟨3, ![1, 1, b]⟩) (j : Fin b) :
    broadcastTo ⟨3, ![1, 1, b]⟩ v h (ix3 (0 : Fin 1) (0 : Fin 1) j) = v (ix3 (0 : Fin 1) (0 : Fin 1) (0 : Fin 1)) := by
  refine broadcastTo_apply v h _ _ fun ax => ?_
  match ax with
  | ⟨0, _⟩ => rfl
  | ⟨1, _⟩ => rfl
  | ⟨2, _⟩ => rfl

end Layout

/-! ## Sums and a maximum along one axis, read at an index -/

section Reductions

/-- The sum along the lanes of an `[a, b]` matrix, read at row `i`, is the sum of that row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  refine Finset.sum_congr rfl fun j _ => congrArg src (funext fun c => Fin.ext ?_)
  match c with
  | ⟨0, _⟩ => rfl
  | ⟨1, _⟩ => rfl

/-- The sum down the rows of an `[a, b]` matrix, read at column `j`, is the sum of that column's entries. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  refine Finset.sum_congr rfl fun i _ => congrArg src (funext fun c => Fin.ext ?_)
  match c with
  | ⟨0, _⟩ => rfl
  | ⟨1, _⟩ => rfl

/-- The sum along the one long axis of a `[1, 1, b]` row is the sum of all its entries. -/
theorem rowSum_apply {b : ℕ} (src : FVec Ideal ⟨3, ![1, 1, b]⟩ .f32) (h : (⟨3, ![1, 1, b]⟩ : Shape).Reduces [2] ⟨2, ![1, 1]⟩)
    (hφ : FKind.Formats .f32) (hacc : (0x00000000#32 : BitVec 32) = 0x00000000#32) :
    multiReduction .add [2] ⟨2, ![1, 1]⟩ src 0x00000000#32 h hφ hacc (ix2 (0 : Fin 1) (0 : Fin 1))
      = ∑ j : Fin b, src (ix3 (0 : Fin 1) (0 : Fin 1) j) := by
  refine (Ideal.multiReduction_add_single src 0x00000000#32 h hφ hacc (ix2 (0 : Fin 1) (0 : Fin 1))).trans ?_
  refine Finset.sum_congr rfl fun j _ => congrArg src (funext fun c => Fin.ext ?_)
  match c with
  | ⟨0, _⟩ => rfl
  | ⟨1, _⟩ => rfl
  | ⟨2, _⟩ => rfl

/-- The maximum along the lanes of an `[a, b]` matrix, read at row `i`, is the fold of `max` over that row's entries,
    started from the value of the accumulator's pattern. -/
theorem laneMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun j => src (ix2 i j)) := by
  refine (Ideal.multiReduction_maximumf_single src 0xFF800000#32 h hφ hacc (ix1 i)).trans ?_
  refine congrArg (fun f => (Finset.univ : Finset (Fin b)).fold max (Ideal.ofBits .f32 0xFF800000#32) f) ?_
  refine funext fun j => congrArg src (funext fun c => Fin.ext ?_)
  match c with
  | ⟨0, _⟩ => rfl
  | ⟨1, _⟩ => rfl

end Reductions

/-! ## An elementwise operation read at an index -/

/-- The reciprocal square root of a vector, at an index, is that of the entry. -/
theorem rsqrt_apply {s : Shape} (v : FVec Ideal s .f32) (i : s.Idx) : rsqrt v i = Ideal.rsqrt (v i) := rfl

end Cert.Lib.AxisReads

end
-- ==== Proof.KernelBlock.lean ====
/-
  One grid point of the kernel: what its body stores, read at a position of the flattened row.

  The body loads one image block `x0` (1 × 32 × 32 × 512), the score weights `x1` and the cluster centres `x2` (512 × 64
  each), and stores one row of 32768 numbers. Position `j` of that row is the per-image result `Cert.Vlad.outMul` of the
  image read as pixel × channel and the two matrices read by their coordinates.

  The road: the body's value is cut into named stages (the image as pixel × channel, the scores, the row maximum, the
  shifted exponentials, the soft assignment, the aggregated residual, the rows scaled to unit length, the flattened row,
  the whole vector's scale), each a definition over the stages before it, so that the body is their composition by
  unfolding. Every operation that is not elementwise (a reshaping, a broadcast down a column, a sum or a maximum along an
  axis, a contraction) is read once at an index given by its coordinates; each stage read at an index is then the
  matching function of the specification.
-/
import proofs.«110298_j75557064672007_1_alg».proof.Proof.Gen.KernelIdeal.Skeleton
import proofs.«110298_j75557064672007_1_alg».proof.Proof.Spec
import proofs.«110298_j75557064672007_1_alg».proof.Proof.LibAxisReads
import Idealize.ShloMosaic.Lib.ValueIdx
import Idealize.ShloMosaic.Lib.Pipeline.Value
import Idealize.ShloMosaic.Lib.ValueLayout
import Idealize.ShloMosaic.PureOps.Ideal.Laws

noncomputable section

open scoped BigOperators
open Idealize.ShloMosaic Idealize.ShloMosaic.TcCoe Idealize.ShloMosaic.ValueIdx

namespace Cert.KernelIdeal.BlockValue

open Cert.KernelIdeal Cert.KernelIdeal.Gen Cert.Lib.AxisReads

/-! ## Reshapings and broadcasts read at an index -/

section Layout
variable {α : Type}

/-- The image block `[1, 32, 32, 512]` seen as `[1024, 512]`: pixel `n` is the one in row `n / 32`, column `n % 32`,
    because `(n / 32 * 32 + n % 32) * 512 + d = n * 512 + d`. -/
theorem image_apply (x : S1x32x32x512.Idx → α) (h1 : S1x32x32x512.ShapeCasts S32x32x512)
    (h2 : S32x32x512.ShapeCasts S1024x512) (n : Fin 1024) (d : Fin 512) :
    shapeCast S1024x512 (shapeCast S32x32x512 x h1) h2 (ix2 n d)
      = x (ix4 (0 : Fin 1) (⟨n.val / 32, by have := n.isLt; omega⟩ : Fin 32) (⟨n.val % 32, Nat.mod_lt _ (by decide)⟩ : Fin 32) d) :=
  (shapeCast_apply (shapeCast S32x32x512 x h1) h2 (ix2 n d)
      (ix3 (⟨n.val / 32, by have := n.isLt; omega⟩ : Fin 32) (⟨n.val % 32, Nat.mod_lt _ (by decide)⟩ : Fin 32) d) (by
    rw [Shape.rowMajor_val_three, Shape.rowMajor_val_two]
    show (n.val / 32 * 32 + n.val % 32) * 512 + d.val = n.val * 512 + d.val
    omega)).trans (shapeCast_1abc_abc_apply x h1 _ _ _)

/-- A `[512, 64]` matrix laid out as one row of 32768: position `j` holds entry `(j / 64, j % 64)`. -/
theorem flatten_apply (v : S512x64.Idx → α) (h : S512x64.ShapeCasts S1x1x32768) (j : Fin 32768) :
    shapeCast S1x1x32768 v h (ix3 (0 : Fin 1) (0 : Fin 1) j)
      = v (ix2 (⟨j.val / 64, by have := j.isLt; omega⟩ : Fin 512) (⟨j.val % 64, Nat.mod_lt _ (by decide)⟩ : Fin 64)) :=
  shapeCast_apply v h _ _ (by
    rw [Shape.rowMajor_val_two, Shape.rowMajor_val_three]
    show j.val / 64 * 64 + j.val % 64 = (0 * 1 + 0) * 32768 + j.val
    omega)

end Layout

/-! ## The two contractions read at an index

Each operand index of a contraction, at an output index and a contraction index, is named axis by axis; the sum over
the contraction shape's one axis is then re-indexed by that axis's coordinate. -/

section Contractions

theorem lhs_score_0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem lhs_score_1 (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
theorem rhs_score_0 (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
theorem rhs_score_1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- Pixels × channels times channels × clusters, into zero: entry `(n, k)` is the sum over the channels. -/
theorem scoreDot_apply (l : FVec Ideal S1024x512 .f32) (r : FVec Ideal S512x64 .f32) (n : Fin 1024) (k : Fin 64) :
    matmul dot_S1024x512_S512x64_S1024x64_1_0_0_1_n_n none l r (constant S1024x64 .f32 0x00000000#32) (ix2 n k)
      = ∑ d : Fin 512, l (ix2 n d) * r (ix2 d k) := by
  simp only [matmul]
  rw [Ideal.matmul_constant_zero_apply, ← Equiv.sum_comp (contrEquiv1 dot_S1024x512_S512x64_S1024x64_1_0_0_1_n_n 512 rfl rfl).symm]
  refine Finset.sum_congr rfl fun d _ => ?_
  have hd := contrEquiv1_symm_val dot_S1024x512_S512x64_S1024x64_1_0_0_1_n_n 512 rfl rfl d
  have el : dot_S1024x512_S512x64_S1024x64_1_0_0_1_n_n.lhsIdx (ix2 n k) ((contrEquiv1 dot_S1024x512_S512x64_S1024x64_1_0_0_1_n_n 512 rfl rfl).symm d) = ix2 n d := funext fun a => Fin.ext (by
    match a with
    | ⟨0, _⟩ => exact lhs_score_0 _ _
    | ⟨1, _⟩ => exact (lhs_score_1 _ _).trans hd)
  have er : dot_S1024x512_S512x64_S1024x64_1_0_0_1_n_n.rhsIdx (ix2 n k) ((contrEquiv1 dot_S1024x512_S512x64_S1024x64_1_0_0_1_n_n 512 rfl rfl).symm d) = ix2 d k := funext fun a => Fin.ext (by
    match a with
    | ⟨0, _⟩ => exact (rhs_score_0 _ _).trans hd
    | ⟨1, _⟩ => exact rhs_score_1 _ _)
  rw [el, er]

theorem lhs_agg_0 (i : S64x512.Idx) (q : dot_S1024x64_S1024x512_S64x512_0_0_1_1_n_n.contr.Idx) :
    (dot_S1024x64_S1024x512_S64x512_0_0_1_1_n_n.lhsIdx i q 0).val = (q ⟨0, by decide⟩).val :=
  dot_S1024x64_S1024x512_S64x512_0_0_1_1_n_n.lhsIdx_val_of_single rfl i q
theorem lhs_agg_1 (i : S64x512.Idx) (q : dot_S1024x64_S1024x512_S64x512_0_0_1_1_n_n.contr.Idx) :
    (dot_S1024x64_S1024x512_S64x512_0_0_1_1_n_n.lhsIdx i q 1).val = (i 0).val := by
  unfold DotDims.lhsIdx
  rw [dif_neg (show ¬(1 : Fin S1024x64.rank) ∈ dot_S1024x64_S1024x512_S64x512_0_0_1_1_n_n.lhsBatch by decide), dif_pos (show (1 : Fin S1024x64.rank) ∈ dot_S1024x64_S1024x512_S64x512_0_0_1_1_n_n.lhsNonContracting by decide)]
  rfl
theorem rhs_agg_0 (i : S64x512.Idx) (q : dot_S1024x64_S1024x512_S64x512_0_0_1_1_n_n.contr.Idx) :
    (dot_S1024x64_S1024x512_S64x512_0_0_1_1_n_n.rhsIdx i q 0).val = (q ⟨0, by decide⟩).val :=
  dot_S1024x64_S1024x512_S64x512_0_0_1_1_n_n.rhsIdx_val_of_single rfl i q
theorem rhs_agg_1 (i : S64x512.Idx) (q : dot_S1024x64_S1024x512_S64x512_0_0_1_1_n_n.contr.Idx) :
    (dot_S1024x64_S1024x512_S64x512_0_0_1_1_n_n.rhsIdx i q 1).val = (i 1).val := by
  unfold DotDims.rhsIdx
  rw [dif_neg (show ¬(1 : Fin S1024x512.rank) ∈ dot_S1024x64_S1024x512_S64x512_0_0_1_1_n_n.rhsBatch by decide), dif_pos (show (1 : Fin S1024x512.rank) ∈ dot_S1024x64_S1024x512_S64x512_0_0_1_1_n_n.rhsNonContracting by decide)]
  rfl

/-- Pixels × clusters against pixels × channels, contracting the pixels of both, into zero: entry `(k, d)` is the sum
    over the pixels. -/
theorem aggDot_apply (l : FVec Ideal S1024x64 .f32) (r : FVec Ideal S1024x512 .f32) (k : Fin 64) (d : Fin 512) :
    matmul dot_S1024x64_S1024x512_S64x512_0_0_1_1_n_n none l r (constant S64x512 .f32 0x00000000#32) (ix2 k d)
      = ∑ n : Fin 1024, l (ix2 n k) * r (ix2 n d) := by
  simp only [matmul]
  rw [Ideal.matmul_constant_zero_apply, ← Equiv.sum_comp (contrEquiv1 dot_S1024x64_S1024x512_S64x512_0_0_1_1_n_n 1024 rfl rfl).symm]
  refine Finset.sum_congr rfl fun n _ => ?_
  have hn := contrEquiv1_symm_val dot_S1024x64_S1024x512_S64x512_0_0_1_1_n_n 1024 rfl rfl n
  have el : dot_S1024x64_S1024x512_S64x512_0_0_1_1_n_n.lhsIdx (ix2 k d) ((contrEquiv1 dot_S1024x64_S1024x512_S64x512_0_0_1_1_n_n 1024 rfl rfl).symm n) = ix2 n k := funext fun a => Fin.ext (by
    match a with
    | ⟨0, _⟩ => exact (lhs_agg_0 _ _).trans hn
    | ⟨1, _⟩ => exact lhs_agg_1 _ _)
  have er : dot_S1024x64_S1024x512_S64x512_0_0_1_1_n_n.rhsIdx (ix2 k d) ((contrEquiv1 dot_S1024x64_S1024x512_S64x512_0_0_1_1_n_n 1024 rfl rfl).symm n) = ix2 n d := funext fun a => Fin.ext (by
    match a with
    | ⟨0, _⟩ => exact (rhs_agg_0 _ _).trans hn
    | ⟨1, _⟩ => exact rhs_agg_1 _ _)
  rw [el, er]

end Contractions

/-! ## The body's value, stage by stage -/

section Stages

variable (x0 : Vec Ideal S1x32x32x512 .f32) (x1 x2 : FVec Ideal S512x64 .f32)

/-- The image block as pixel × channel. -/
def pixV : FVec Ideal S1024x512 .f32 :=
  shapeCast S1024x512 (shapeCast S32x32x512 x0 shapeCasts_S1x32x32x512_S32x32x512) shapeCasts_S32x32x512_S1024x512

/-- The scores: pixels × clusters. -/
def scoreV : FVec Ideal S1024x64 .f32 :=
  matmul dot_S1024x512_S512x64_S1024x64_1_0_0_1_n_n none (pixV x0) x1 (constant S1024x64 .f32 0x00000000#32)

/-- Each pixel's largest score. -/
def rowMaxV : FVec Ideal S1024 .f32 :=
  maximumf (broadcast S1024 (Scalar.ofBits .f32 0xFF800000#32))
    (multiReduction .maximumf [1] S1024 (scoreV x0 x1) 0xFF800000#32 reduces_S1024x64_S1024 (.inl rfl) rfl)

/-- The shifted exponentials. -/
def expV : FVec Ideal S1024x64 .f32 :=
  exp (subf (scoreV x0 x1)
    (broadcastTo S1024x64 (shapeCast S1024x1 (rowMaxV x0 x1) shapeCasts_S1024_S1024x1) broadcasts_S1024x1_S1024x64))

/-- The soft assignment. -/
def assignV : FVec Ideal S1024x64 .f32 :=
  divf (expV x0 x1)
    (broadcastTo S1024x64
      (shapeCast S1024x1
        (multiReduction .add [1] S1024 (expV x0 x1) 0x00000000#32 reduces_S1024x64_S1024 (.inl rfl) rfl)
        shapeCasts_S1024_S1024x1)
      broadcasts_S1024x1_S1024x64)

/-- The aggregated residual: clusters × channels. -/
def residV : FVec Ideal S64x512 .f32 :=
  addf (matmul dot_S1024x64_S1024x512_S64x512_0_0_1_1_n_n none (assignV x0 x1) (pixV x0) (constant S64x512 .f32 0x00000000#32))
    (mulf
      (broadcastTo S64x512
        (shapeCast S64x1
          (multiReduction .add [0] S64 (assignV x0 x1) 0x00000000#32 reduces_S1024x64_S64 (.inl rfl) rfl)
          shapeCasts_S64_S64x1)
        broadcasts_S64x1_S64x512)
      (transpose S64x512 [1, 0] x2 transposes_S512x64_p1_0_S64x512))

/-- Each cluster's row scaled by the reciprocal square root of its stabilised squared length. -/
def intraV : FVec Ideal S64x512 .f32 :=
  mulf (residV x0 x1 x2)
    (broadcastTo S64x512
      (rsqrt (addf
        (shapeCast S64x1
          (multiReduction .add [1] S64 (mulf (residV x0 x1 x2) (residV x0 x1 x2)) 0x00000000#32 reduces_S64x512_S64 (.inl rfl) rfl)
          shapeCasts_S64_S64x1)
        (broadcast S64x1 (Scalar.ofBits .f32 0x2B8CBCCC#32))))
      broadcasts_S64x1_S64x512)

/-- The scaled rows laid out channel-major as one row of 32768. -/
def rowV : FVec Ideal S1x1x32768 .f32 :=
  shapeCast S1x1x32768 (transpose S512x64 [1, 0] (intraV x0 x1 x2) transposes_S64x512_p1_0_S512x64)
    shapeCasts_S512x64_S1x1x32768

/-- The whole vector's scale, repeated along the row. -/
def normV : FVec Ideal S1x1x32768 .f32 :=
  broadcastTo S1x1x32768
    (rsqrt (addf
      (shapeCast S1x1x1
        (multiReduction .add [2] S1x1 (mulf (rowV x0 x1 x2) (rowV x0 x1 x2)) 0x00000000#32 reduces_S1x1x32768_S1x1 (.inl rfl) rfl)
        shapeCasts_S1x1_S1x1x1)
      (broadcast S1x1x1 (Scalar.ofBits .f32 0x2B8CBCCC#32))))
    broadcasts_S1x1x1_S1x1x32768

/-- The body's flattened row is the last of these stages: the body's bindings substitute to the same term. -/
theorem pay2_eq : k0_pay2 (F := Ideal) x0 x1 x2 = rowV x0 x1 x2 := rfl

/-- The body's repeated scale likewise. -/
theorem pay3_eq : k0_pay3 (F := Ideal) x0 x1 x2 = normV x0 x1 x2 := rfl

end Stages

/-! ## Each stage read at an index is the specification's function -/

section StageValues

open Cert.Vlad

variable (x0 : Vec Ideal S1x32x32x512 .f32) (x1 x2 : FVec Ideal S512x64 .f32)

theorem pixV_apply (n : Fin 1024) (d : Fin 512) : pixV x0 (ix2 n d) = imgOf x0 (0 : Fin 1) n d :=
  image_apply x0 _ _ n d

theorem scoreV_apply (n : Fin 1024) (k : Fin 64) :
    scoreV x0 x1 (ix2 n k) = score (imgOf x0 (0 : Fin 1)) (matOf x1) n k :=
  (scoreDot_apply (pixV x0) x1 n k).trans
    (Finset.sum_congr rfl fun d _ => congrArg (· * x1 (ix2 d k)) (pixV_apply x0 n d))

theorem rowMaxV_apply (n : Fin 1024) :
    rowMaxV x0 x1 (ix1 n) = rowMax (score (imgOf x0 (0 : Fin 1)) (matOf x1)) n := by
  show max (Ideal.ofBits .f32 0xFF800000#32)
      (multiReduction .maximumf [1] S1024 (scoreV x0 x1) 0xFF800000#32 reduces_S1024x64_S1024 (.inl rfl) rfl (ix1 n)) = _
  refine congrArg (max (Ideal.ofBits .f32 0xFF800000#32)) ?_
  refine (laneMax_apply (scoreV x0 x1) _ _ _ n).trans ?_
  exact congrArg (fun f => (Finset.univ : Finset (Fin 64)).fold max (Ideal.ofBits .f32 0xFF800000#32) f)
    (funext fun k => scoreV_apply x0 x1 n k)

theorem expV_apply (n : Fin 1024) (k : Fin 64) :
    expV x0 x1 (ix2 n k) = expo (score (imgOf x0 (0 : Fin 1)) (matOf x1)) n k := by
  show Ideal.exp (scoreV x0 x1 (ix2 n k)
      - broadcastTo S1024x64 (shapeCast S1024x1 (rowMaxV x0 x1) shapeCasts_S1024_S1024x1) broadcasts_S1024x1_S1024x64 (ix2 n k)) = _
  refine congrArg Ideal.exp (congrArg₂ (· - ·) (scoreV_apply x0 x1 n k) ?_)
  exact (broadcastTo_a1_ab_apply _ _ n k).trans
    ((shapeCast_a_a1_apply _ _ n 0).trans (rowMaxV_apply x0 x1 n))

theorem assignV_apply (n : Fin 1024) (k : Fin 64) :
    assignV x0 x1 (ix2 n k) = assign (expo (score (imgOf x0 (0 : Fin 1)) (matOf x1))) n k := by
  show Ideal.div (expV x0 x1 (ix2 n k))
      (broadcastTo S1024x64
        (shapeCast S1024x1
          (multiReduction .add [1] S1024 (expV x0 x1) 0x00000000#32 reduces_S1024x64_S1024 (.inl rfl) rfl)
          shapeCasts_S1024_S1024x1)
        broadcasts_S1024x1_S1024x64 (ix2 n k)) = _
  refine congrArg₂ Ideal.div (expV_apply x0 x1 n k) ?_
  exact (broadcastTo_a1_ab_apply _ _ n k).trans
    ((shapeCast_a_a1_apply _ _ n 0).trans
      ((laneSum_apply (expV x0 x1) _ _ _ n).trans (Finset.sum_congr rfl fun k' _ => expV_apply x0 x1 n k')))

theorem residV_apply (k : Fin 64) (d : Fin 512) :
    residV x0 x1 x2 (ix2 k d) = residOf (imgOf x0 (0 : Fin 1)) (matOf x1) (matOf x2) k d := by
  show matmul dot_S1024x64_S1024x512_S64x512_0_0_1_1_n_n none (assignV x0 x1) (pixV x0) (constant S64x512 .f32 0x00000000#32) (ix2 k d)
      + broadcastTo S64x512
          (shapeCast S64x1
            (multiReduction .add [0] S64 (assignV x0 x1) 0x00000000#32 reduces_S1024x64_S64 (.inl rfl) rfl)
            shapeCasts_S64_S64x1)
          broadcasts_S64x1_S64x512 (ix2 k d)
        * transpose S64x512 [1, 0] x2 transposes_S512x64_p1_0_S64x512 (ix2 k d) = _
  refine congrArg₂ (· + ·) ?_ (congrArg₂ (· * ·) ?_ ?_)
  · exact (aggDot_apply (assignV x0 x1) (pixV x0) k d).trans
      (Finset.sum_congr rfl fun n _ => congrArg₂ (· * ·) (assignV_apply x0 x1 n k) (pixV_apply x0 n d))
  · exact (broadcastTo_a1_ab_apply _ _ k d).trans
      ((shapeCast_a_a1_apply _ _ k 0).trans
        ((colSum_apply (assignV x0 x1) _ _ _ k).trans (Finset.sum_congr rfl fun n _ => assignV_apply x0 x1 n k)))
  · exact transpose_ix2_apply x2 _ k d

theorem intraV_apply (k : Fin 64) (d : Fin 512) :
    intraV x0 x1 x2 (ix2 k d) = intraMul (residOf (imgOf x0 (0 : Fin 1)) (matOf x1) (matOf x2)) k d := by
  show residV x0 x1 x2 (ix2 k d)
      * broadcastTo S64x512
          (rsqrt (addf
            (shapeCast S64x1
              (multiReduction .add [1] S64 (mulf (residV x0 x1 x2) (residV x0 x1 x2)) 0x00000000#32 reduces_S64x512_S64 (.inl rfl) rfl)
              shapeCasts_S64_S64x1)
            (broadcast S64x1 (Scalar.ofBits .f32 0x2B8CBCCC#32))))
          broadcasts_S64x1_S64x512 (ix2 k d) = _
  refine congrArg₂ (· * ·) (residV_apply x0 x1 x2 k d) ?_
  refine (broadcastTo_a1_ab_apply _ _ k d).trans ?_
  show Ideal.rsqrt
      (shapeCast S64x1
          (multiReduction .add [1] S64 (mulf (residV x0 x1 x2) (residV x0 x1 x2)) 0x00000000#32 reduces_S64x512_S64 (.inl rfl) rfl)
          shapeCasts_S64_S64x1 (ix2 k (0 : Fin 1))
        + Ideal.ofBits .f32 0x2B8CBCCC#32) = _
  refine congrArg (fun t => Ideal.rsqrt (t + Ideal.ofBits .f32 0x2B8CBCCC#32)) ?_
  refine (shapeCast_a_a1_apply _ _ k 0).trans ((laneSum_apply _ _ _ _ k).trans (Finset.sum_congr rfl fun d' _ => ?_))
  exact congrArg₂ (· * ·) (residV_apply x0 x1 x2 k d') (residV_apply x0 x1 x2 k d')

theorem rowV_apply (j : Fin 32768) :
    rowV x0 x1 x2 (ix3 (0 : Fin 1) (0 : Fin 1) j)
      = flat (intraMul (residOf (imgOf x0 (0 : Fin 1)) (matOf x1) (matOf x2))) j :=
  (flatten_apply _ _ j).trans ((transpose_ix2_apply (intraV x0 x1 x2) _ _ _).trans (intraV_apply x0 x1 x2 _ _))

theorem normV_apply (j : Fin 32768) :
    normV x0 x1 x2 (ix3 (0 : Fin 1) (0 : Fin 1) j)
      = Ideal.rsqrt (sqLen2 (flat (intraMul (residOf (imgOf x0 (0 : Fin 1)) (matOf x1) (matOf x2))))) := by
  refine (broadcastTo_111_11b_apply _ _ j).trans ?_
  refine (rsqrt_apply _ _).trans (congrArg Ideal.rsqrt ?_)
  refine (addf_apply _ _ _).trans (congrArg₂ (· + ·) ?_ rfl)
  refine (shapeCast_ab_1ab_apply _ _ (0 : Fin 1) (0 : Fin 1) (0 : Fin 1)).trans
    ((rowSum_apply _ _ _ _).trans (Finset.sum_congr rfl fun j' _ => ?_))
  exact congrArg₂ (· * ·) (rowV_apply x0 x1 x2 j') (rowV_apply x0 x1 x2 j')

end StageValues

/-- The stored row at position `j` is the per-image result of the loaded blocks. -/
theorem block_eq (x0 : Vec Ideal S1x32x32x512 .f32) (x1 x2 : Vec Ideal S512x64 .f32) (j : Fin 32768) :
    k0_pay1 (F := Ideal) (k0_pay2 x0 x1 x2) (k0_pay3 x0 x1 x2) (ix3 (0 : Fin 1) (0 : Fin 1) j)
      = Cert.Vlad.outMul (Cert.Vlad.imgOf x0 (0 : Fin 1)) (Cert.Vlad.matOf x1) (Cert.Vlad.matOf x2) j := by
  show k0_pay2 (F := Ideal) x0 x1 x2 (ix3 (0 : Fin 1) (0 : Fin 1) j) * k0_pay3 (F := Ideal) x0 x1 x2 (ix3 (0 : Fin 1) (0 : Fin 1) j) = _
  rw [pay2_eq, pay3_eq]
  exact congrArg₂ (· * ·) (rowV_apply x0 x1 x2 j) (normV_apply x0 x1 x2 j)

end Cert.KernelIdeal.BlockValue

end
-- ==== Proof.KernelArray.lean ====
/-
  From the kernel's grid points to its result array.

  Grid point `t` (one per image of the batch) loads image `t` and the two whole matrices, and writes back row `t` of the
  64 × 1 × 32768 output. So the output array after the run is, at `(b, 0, j)`, the per-image result of image `b` at
  position `j`: every row is some point's block and the blocks cover the array. The program then reshapes that array
  to 64 × 32768, which moves entry `(b, 0, j)` to `(b, j)`.
-/
import proofs.«110298_j75557064672007_1_alg».proof.Proof.Gen.KernelIdeal.Frame
import proofs.«110298_j75557064672007_1_alg».proof.Proof.KernelBlock
import proofs.«110298_j75557064672007_1_alg».proof.Proof.Spec
import Idealize.ShloMosaic.Lib.Pipeline.Value
import Idealize.ShloMosaic.Lib.ValueIdx
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat Cfg Window)

namespace Cert.KernelIdeal.ArrayValue

open Cert.KernelIdeal Cert.KernelIdeal.Gen

variable (m : (ℓ : Loc nD τ sig) → Buf (Elt Ideal) ℓ) (ρ : Dev nD → PrngReg)

/-- The output array as one function of the three argument arrays: row `b` is image `b`'s result. -/
def rows (X : S64x32x32x512.Idx → EReal) (W C : S512x64.Idx → EReal) : S64x1x32768.Idx → EReal := fun i =>
  Cert.Vlad.outMul (Cert.Vlad.imgOf X ⟨(i 0).val, (i 0).isLt⟩) (Cert.Vlad.matOf W) (Cert.Vlad.matOf C) ⟨(i 2).val, (i 2).isLt⟩

/-- The reshaped result: entry `(b, j)` is image `b`'s result at position `j`. -/
def result (X : S64x32x32x512.Idx → EReal) (W C : S512x64.Idx → EReal) : S64x32768.Idx → EReal := fun i =>
  Cert.Vlad.outMul (Cert.Vlad.imgOf X ⟨(i 0).val, (i 0).isLt⟩) (Cert.Vlad.matOf W) (Cert.Vlad.matOf C) ⟨(i 1).val, (i 1).isLt⟩

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the image window and the output window are at block `t` on their first axis
    and block 0 elsewhere; the two matrix windows are at block 0. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- What point `t` writes back is block `t` of `rows` of the argument arrays. -/
theorem flushed_eq (c : Dev nD) (t : Fin cfg0.N) :
    (dats m 0 c).flushed 3 t
      = ((cfg0.win 3).blk t).view.read (Elt Ideal) (rows (V m c main_arg0) (V m c main_arg1) (V m c main_arg2)) := by
  show (cfg0.win 3).cut (grid0.coords t) ((dats m 0 c).after 3 t) = _
  rw [after0_3]
  unfold out0_3
  rw [View.canon_unit_zero hz3]
  simp only [View.ld_unit_zero (S := S1x32x32x512) hz4, View.ld_unit_zero (S := S512x64) hz2]
  funext y
  obtain ⟨a, b, j, rfl⟩ : ∃ (a : Fin 1) (b : Fin 1) (j : Fin 32768), y = ix3 a b j := ⟨y 0, y 1, y 2, eq_ix3 y⟩
  obtain rfl : a = 0 := Subsingleton.elim _ _
  obtain rfl : b = 0 := Subsingleton.elim _ _
  show k0_pay1 (F := Ideal) (k0_pay2 (iblk m c 0 t) (iblk m c 1 t) (iblk m c 2 t)) (k0_pay3 (iblk m c 0 t) (iblk m c 1 t) (iblk m c 2 t)) (ix3 (0 : Fin 1) (0 : Fin 1) j)
     = rows (V m c main_arg0) (V m c main_arg1) (V m c main_arg2) (((cfg0.win 3).blk t).view.emb (ix3 (0 : Fin 1) (0 : Fin 1) j))
  refine (BlockValue.block_eq (iblk m c 0 t) (iblk m c 1 t) (iblk m c 2 t) j).trans ?_
  unfold rows
  obtain ⟨e00, e01, e02, e03, e10, e11, e20, e21, e30, e31, e32⟩ := idx_facts t
  have hj : (((cfg0.win 3).blk t).view.emb (ix3 (0 : Fin 1) (0 : Fin 1) j) 2).val = j.val := by
    show win0_3.index t (2 : Fin 3) * 32768 + 1 * j.val = j.val
    omega
  have hb : (((cfg0.win 3).blk t).view.emb (ix3 (0 : Fin 1) (0 : Fin 1) j) 0).val = t.val := by
    show win0_3.index t (0 : Fin 3) * 1 + 1 * 0 = t.val
    omega
  have hX : Cert.Vlad.imgOf (iblk m c 0 t) (0 : Fin 1)
      = Cert.Vlad.imgOf (V m c main_arg0) ⟨(((cfg0.win 3).blk t).view.emb (ix3 (0 : Fin 1) (0 : Fin 1) j) 0).val, (((cfg0.win 3).blk t).view.emb (ix3 (0 : Fin 1) (0 : Fin 1) j) 0).isLt⟩ := by
    funext n d
    unfold Cert.Vlad.imgOf
    show V m c main_arg0 (((cfg0.win 0).blk t).view.emb (ix4 (0 : Fin 1) ⟨n.val / 32, _⟩ ⟨n.val % 32, _⟩ d)) = _
    refine congrArg (V m c main_arg0) (funext fun a => Fin.ext ?_)
    match a with
    | ⟨0, _⟩ => show win0_0.index t (0 : Fin 4) * 1 + 1 * 0 = _; rw [hb]; omega
    | ⟨1, _⟩ => show win0_0.index t (1 : Fin 4) * 32 + 1 * (n.val / 32) = n.val / 32; omega
    | ⟨2, _⟩ => show win0_0.index t (2 : Fin 4) * 32 + 1 * (n.val % 32) = n.val % 32; omega
    | ⟨3, _⟩ => show win0_0.index t (3 : Fin 4) * 512 + 1 * d.val = d.val; omega
  have hW : Cert.Vlad.matOf (iblk m c 1 t) = Cert.Vlad.matOf (V m c main_arg1) := by
    funext d k
    unfold Cert.Vlad.matOf
    show V m c main_arg1 (((cfg0.win 1).blk t).view.emb (ix2 d k)) = _
    refine congrArg (V m c main_arg1) (funext fun a => Fin.ext ?_)
    match a with
    | ⟨0, _⟩ => show win0_1.index t (0 : Fin 2) * 512 + 1 * d.val = d.val; omega
    | ⟨1, _⟩ => show win0_1.index t (1 : Fin 2) * 64 + 1 * k.val = k.val; omega
  have hC : Cert.Vlad.matOf (iblk m c 2 t) = Cert.Vlad.matOf (V m c main_arg2) := by
    funext d k
    unfold Cert.Vlad.matOf
    show V m c main_arg2 (((cfg0.win 2).blk t).view.emb (ix2 d k)) = _
    refine congrArg (V m c main_arg2) (funext fun a => Fin.ext ?_)
    match a with
    | ⟨0, _⟩ => show win0_2.index t (0 : Fin 2) * 512 + 1 * d.val = d.val; omega
    | ⟨1, _⟩ => show win0_2.index t (1 : Fin 2) * 64 + 1 * k.val = k.val; omega
  rw [hX, hW, hC]
  exact congrArg _ (Fin.ext hj.symm)

/-- An index of the output array is in point `t`'s block iff each coordinate is in the block's range on its axis. -/
theorem mem_blk (t : Fin cfg0.N) (i : S64x1x32768.Idx) :
    i ∈ ((cfg0.win 3).blk t).view.set ↔ ∀ a : Fin 3, win0_3.index t a * S1x1x32768.size a ≤ (i a).val ∧ (i a).val < win0_3.index t a * S1x1x32768.size a + S1x1x32768.size a := by
  show i ∈ ((View.whole main_v0).slice (win0_3.rect t)).set ↔ _
  rw [View.set_slice_whole, Rect.mem_set_unit]
  exact Iff.rfl

/-- Every index of the output array lies in the block of the point numbered by its row. -/
theorem cover (i : S64x1x32768.Idx) : ∃ t : Fin cfg0.N, (cfg0.win 3).flush t = true ∧ i ∈ ((cfg0.win 3).blk t).view.set := by
  have h0 : (i 0).val < 64 := (i 0).isLt
  have h1 : (i 1).val < 1 := (i 1).isLt
  have h2 : (i 2).val < 32768 := (i 2).isLt
  obtain ⟨t, ht⟩ : ∃ t : Fin cfg0.N, t.val = (i 0).val :=
    ⟨⟨(i 0).val, by rw [show cfg0.N = 64 from N_0]; exact h0⟩, rfl⟩
  refine ⟨t, flush0_3 t, ?_⟩
  obtain ⟨-, -, -, -, -, -, -, -, e30, e31, e32⟩ := idx_facts t
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 32768 ≤ (i 2).val ∧ (i 2).val < win0_3.index t (2 : Fin 3) * 32768 + 32768; omega

/-- The output array after the run is `rows` of the argument arrays. -/
theorem final (c : Dev nD) :
    (dats m 0 c).arrAt 3 cfg0.N = rows (V m c main_arg0) (V m c main_arg1) (V m c main_arg2) :=
  (dats m 0 c).arrAt_eq_of_cover 3 _ (fun t _ => flushed_eq m c t) cover

/-- The program's result: the reshape of the output array, which is `result` of the argument arrays. -/
theorem tail_eq (c : Dev nD) :
    Pipeline.afterTail₀ cfgs (dats m) 0 (V0 m) [hostOps1] c main_v1
      = result (m ((c : Thread nD τ).loc main_arg0)) (m ((c : Thread nD τ).loc main_arg1)) (m ((c : Thread nD τ).loc main_arg2)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = rows (V m c main_arg0) (V m c main_arg1) (V m c main_arg2) :=
    (Pipeline.withArrays_arr spec0 launch0.win.arr_inj c _ _ 3).trans (final m c)
  funext i
  have h0 : (i 0).val < 64 := (i 0).isLt
  have h1 : (i 1).val < 32768 := (i 1).isLt
  show shapeCast S64x32768 (Pipeline.withArrays (cfgs 0).spec c (V0 m c) (fun w => (dats m 0 c).arrAt w (cfgs 0).N) (Proc.devRef .tc main_v0))
      shapeCasts_S64x1x32768_S64x32768 i = _
  rw [hw]
  refine (shapeCast_apply _ shapeCasts_S64x1x32768_S64x32768 i (ix3 (⟨(i 0).val, h0⟩ : Fin 64) (0 : Fin 1) (⟨(i 1).val, h1⟩ : Fin 32768))
    (by rewrite [Shape.rowMajor_val_three, Shape.rowMajor_val_two]
        show ((i 0).val * 1 + 0) * 32768 + (i 1).val = (i 0).val * 32768 + (i 1).val
        omega)).trans ?_
  rfl

/-- The result buffer is no array of the pipeline and is not scoped, so the run's post speaks of it. -/
theorem result_mem_rest : main_v1 ∈ Pipeline.restRefs sig (cfgs 0).spec :=
  Pipeline.mem_restRefs_of main_v1 (by decide) (by decide)

/-- The kernel program's run, read: every weakly fair execution ends with the result buffer at `result` of the three
    argument arrays, and the arguments as they were. -/
theorem run_value : θ_run defs (onTc (τ := τ) (main (F := Ideal))) ⟨m, fun _ => 0, ρ⟩ fun r => ∀ c : Dev nD,
      r.2.mem ((c.tc : Thread nD τ).loc main_v1)
          = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).2 main_v1 result_mem_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.ArrayValue

end
-- ==== Proof.RefValue.lean ====
/-
  The reference, read at an index of its result: entry `(b, j)` is the per-image result `Cert.Vlad.outDiv` of image `b`
  of the batch read as pixel × channel and the two matrices read by their coordinates.
-/
import proofs.«110298_j75557064672007_1_alg».proof.Proof.Gen.ReferenceIdeal.Read
import proofs.«110298_j75557064672007_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators
open Idealize.ShloMosaic Idealize.ShloMosaic.TcCoe Idealize.ShloMosaic.ValueIdx

namespace Cert.ReferenceIdeal.RefValue

open Cert.ReferenceIdeal Cert.ReferenceIdeal.Gen Cert.ReferenceIdeal.Read

/-- The grid row of pixel `n` of a 32 × 32 image. -/
abbrev prow (n : Fin 1024) : Fin 32 := ⟨n.val / 32, by have := n.isLt; omega⟩
/-- The grid column of pixel `n` of a 32 × 32 image. -/
abbrev pcol (n : Fin 1024) : Fin 32 := ⟨n.val % 32, Nat.mod_lt _ (by decide)⟩

section Stages

variable (X0 : (⟨S64x32x32x512, .f32⟩ : BufTy).Contents (Elt Ideal)) (X1 X2 : (⟨S512x64, .f32⟩ : BufTy).Contents (Elt Ideal))

/-- The first contraction at image `b`, pixel `n`, cluster `k` is that pixel's score for the cluster. -/
theorem v0_eq (b : Fin 64) (n : Fin 1024) (k : Fin 64) :
    val_main_v0 (F := Ideal) X0 X1 (ix4 b (prow n) (pcol n) k)
      = Cert.Vlad.score (Cert.Vlad.imgOf X0 b) (Cert.Vlad.matOf X1) n k := by
  rw [val_main_v0_apply]
  unfold Cert.Vlad.score Cert.Vlad.imgOf Cert.Vlad.matOf
  refine Finset.sum_congr rfl fun d _ => ?_
  have el : lidx_main_v0 (ix4 b (prow n) (pcol n) k) d = ix4 b (prow n) (pcol n) d :=
    funext fun a => by match a with | ⟨0, _⟩ => rfl | ⟨1, _⟩ => rfl | ⟨2, _⟩ => rfl | ⟨3, _⟩ => rfl
  have er : ridx_main_v0 (ix4 b (prow n) (pcol n) k) d = ix2 d k :=
    funext fun a => by match a with | ⟨0, _⟩ => rfl | ⟨1, _⟩ => rfl
  rw [el, er]

/-- The maximum over the cluster axis at image `b`, pixel `n`: the fold of `max` over the pixel's scores. -/
theorem v1_eq (b : Fin 64) (n : Fin 1024) :
    val_main_v1 (F := Ideal) X0 X1 (ix3 b (prow n) (pcol n))
      = (Finset.univ : Finset (Fin 64)).fold max Cert.Vlad.negInf
          (fun k => Cert.Vlad.score (Cert.Vlad.imgOf X0 b) (Cert.Vlad.matOf X1) n k) := by
  unfold val_main_v1
  have hR : S64x32x32x64.Reduces [3] S64x32x32 := by decide
  rw [Host.reduce_eq_fold_single _ _ _ reducesTo_S64x32x32x64_S64x32x32_d3 hR h_S_]
  have hl : ∀ k : Fin 64, hR.lift (ix3 b (prow n) (pcol n)) k = ix4 b (prow n) (pcol n) k := fun k =>
    funext fun a => Fin.ext (by match a with | ⟨0, _⟩ => rfl | ⟨1, _⟩ => rfl | ⟨2, _⟩ => rfl | ⟨3, _⟩ => rfl)
  show (Finset.univ : Finset (Fin 64)).fold max Cert.Vlad.negInf
      (fun k => val_main_v0 (F := Ideal) X0 X1 (hR.lift (ix3 b (prow n) (pcol n)) k)) = _
  refine congrArg (fun f => (Finset.univ : Finset (Fin 64)).fold max Cert.Vlad.negInf f) (funext fun (k : Fin 64) => ?_)
  exact (congrArg (val_main_v0 (F := Ideal) X0 X1) (hl k)).trans (v0_eq X0 X1 b n k)

/-- The row maximum as the reference takes it: the larger of minus infinity and the fold. -/
theorem v3_eq (b : Fin 64) (n : Fin 1024) :
    val_main_v3 (F := Ideal) X0 X1 (ix3 b (prow n) (pcol n))
      = Cert.Vlad.rowMax (Cert.Vlad.score (Cert.Vlad.imgOf X0 b) (Cert.Vlad.matOf X1)) n := by
  rw [val_main_v3_apply, val_main_v2_apply, val_main_cst_0_apply, v1_eq]
  rfl

/-- The scores of image `b`. -/
abbrev sc (b : Fin 64) : Fin 1024 → Fin 64 → EReal :=
  Cert.Vlad.score (Cert.Vlad.imgOf X0 b) (Cert.Vlad.matOf X1)
/-- The soft assignments of image `b`. -/
abbrev asg (b : Fin 64) : Fin 1024 → Fin 64 → EReal := Cert.Vlad.assign (Cert.Vlad.expo (sc X0 X1 b))
/-- The aggregated residuals of image `b`. -/
abbrev res (b : Fin 64) : Fin 64 → Fin 512 → EReal :=
  Cert.Vlad.residOf (Cert.Vlad.imgOf X0 b) (Cert.Vlad.matOf X1) (Cert.Vlad.matOf X2)
/-- The row-normalised residuals of image `b`, laid out channel-major. -/
abbrev fl (b : Fin 64) : Fin 32768 → EReal := Cert.Vlad.flat (Cert.Vlad.intraDiv (res X0 X1 X2 b))

/-- The exponential of the score shifted by the row maximum. -/
theorem v7_eq (b : Fin 64) (n : Fin 1024) (k : Fin 64) :
    val_main_v7 (F := Ideal) X0 X1 (ix4 b (prow n) (pcol n) k) = Cert.Vlad.expo (sc X0 X1 b) n k := by
  have e : idx_main_v4 (idx_main_v5 (ix4 b (prow n) (pcol n) k)) = ix3 b (prow n) (pcol n) :=
    funext fun a => by match a with | ⟨0, _⟩ => rfl | ⟨1, _⟩ => rfl | ⟨2, _⟩ => rfl
  rw [val_main_v7_apply, val_main_v6_apply, val_main_v5_apply, val_main_v4_apply, e, v3_eq, v0_eq]
  rfl

/-- The pixel's normaliser: the sum of its exponentials over the clusters. -/
theorem v8_eq (b : Fin 64) (n : Fin 1024) :
    val_main_v8 (F := Ideal) X0 X1 (ix3 b (prow n) (pcol n))
      = Cert.Vlad.expSum (Cert.Vlad.expo (sc X0 X1 b)) n := by
  rw [val_main_v8_apply, val_main_cst_1_apply, Ideal.ofBits_def, Ideal.ofBits_zero_f32, zero_add]
  unfold Cert.Vlad.expSum
  refine Finset.sum_congr rfl fun k _ => ?_
  have e : idx_main_v8 (ix3 b (prow n) (pcol n)) k = ix4 b (prow n) (pcol n) k :=
    funext fun a => by match a with | ⟨0, _⟩ => rfl | ⟨1, _⟩ => rfl | ⟨2, _⟩ => rfl | ⟨3, _⟩ => rfl
  rw [e, v7_eq]

/-- The soft assignment on the pixel grid. -/
theorem v11_eq (b : Fin 64) (n : Fin 1024) (k : Fin 64) :
    val_main_v11 (F := Ideal) X0 X1 (ix4 b (prow n) (pcol n) k) = asg X0 X1 b n k := by
  have e : idx_main_v9 (idx_main_v10 (ix4 b (prow n) (pcol n) k)) = ix3 b (prow n) (pcol n) :=
    funext fun a => by match a with | ⟨0, _⟩ => rfl | ⟨1, _⟩ => rfl | ⟨2, _⟩ => rfl
  rw [val_main_v11_apply, val_main_v10_apply, val_main_v9_apply, e, v8_eq, v7_eq]
  rfl

/-- The soft assignment with the grid flattened to a pixel number: pixel `n` sits in row `n / 32`, column `n % 32`. -/
theorem v12_eq (b : Fin 64) (n : Fin 1024) (k : Fin 64) :
    val_main_v12 (F := Ideal) X0 X1 (ix3 b n k) = asg X0 X1 b n k := by
  have e : idx_main_v12 (ix3 b n k) = ix4 b (prow n) (pcol n) k := funext fun a => Fin.ext (by
    have hb := b.isLt; have hn := n.isLt; have hk := k.isLt
    match a with
    | ⟨0, _⟩ => show ((b.val * 1024 + n.val) * 64 + k.val) / 65536 = b.val; omega
    | ⟨1, _⟩ => show ((b.val * 1024 + n.val) * 64 + k.val) / 2048 % 32 = n.val / 32; omega
    | ⟨2, _⟩ => show ((b.val * 1024 + n.val) * 64 + k.val) / 64 % 32 = n.val % 32; omega
    | ⟨3, _⟩ => show ((b.val * 1024 + n.val) * 64 + k.val) % 64 = k.val; omega)
  rw [val_main_v12_apply, e, v11_eq]

/-- The batch with the grid flattened to a pixel number. -/
theorem v13_eq (b : Fin 64) (n : Fin 1024) (d : Fin 512) :
    val_main_v13 (F := Ideal) X0 (ix3 b n d) = Cert.Vlad.imgOf X0 b n d := by
  have e : idx_main_v13 (ix3 b n d) = ix4 b (prow n) (pcol n) d := funext fun a => Fin.ext (by
    have hb := b.isLt; have hn := n.isLt; have hd := d.isLt
    match a with
    | ⟨0, _⟩ => show ((b.val * 1024 + n.val) * 512 + d.val) / 524288 = b.val; omega
    | ⟨1, _⟩ => show ((b.val * 1024 + n.val) * 512 + d.val) / 16384 % 32 = n.val / 32; omega
    | ⟨2, _⟩ => show ((b.val * 1024 + n.val) * 512 + d.val) / 512 % 32 = n.val % 32; omega
    | ⟨3, _⟩ => show ((b.val * 1024 + n.val) * 512 + d.val) % 512 = d.val; omega)
  rw [val_main_v13_apply, e]
  rfl

/-- The assignment-weighted sum of the pixels. -/
theorem v14_eq (b : Fin 64) (k : Fin 64) (d : Fin 512) :
    val_main_v14 (F := Ideal) X0 X1 (ix3 b k d) = Cert.Vlad.agg (asg X0 X1 b) (Cert.Vlad.imgOf X0 b) k d := by
  rw [val_main_v14_apply]
  unfold Cert.Vlad.agg
  refine Finset.sum_congr rfl fun n _ => ?_
  have el : lidx_main_v14 (ix3 b k d) n = ix3 b n k :=
    funext fun a => by match a with | ⟨0, _⟩ => rfl | ⟨1, _⟩ => rfl | ⟨2, _⟩ => rfl
  have er : ridx_main_v14 (ix3 b k d) n = ix3 b n d :=
    funext fun a => by match a with | ⟨0, _⟩ => rfl | ⟨1, _⟩ => rfl | ⟨2, _⟩ => rfl
  rw [el, er, v12_eq, v13_eq]

/-- The total assignment a cluster receives. -/
theorem v15_eq (b : Fin 64) (k : Fin 64) :
    val_main_v15 (F := Ideal) X0 X1 (ix2 b k) = Cert.Vlad.mass (asg X0 X1 b) k := by
  rw [val_main_v15_apply, val_main_cst_2_apply, Ideal.ofBits_def, Ideal.ofBits_zero_f32, zero_add]
  unfold Cert.Vlad.mass
  refine Finset.sum_congr rfl fun n _ => ?_
  have e : idx_main_v15 (ix2 b k) n = ix3 b n k :=
    funext fun a => by match a with | ⟨0, _⟩ => rfl | ⟨1, _⟩ => rfl | ⟨2, _⟩ => rfl
  rw [e, v12_eq]

/-- The aggregated residual: the weighted sum plus the cluster's mass times its centre, the centres read transposed. -/
theorem v22_eq (b : Fin 64) (k : Fin 64) (d : Fin 512) :
    val_main_v22 (F := Ideal) X0 X1 X2 (ix3 b k d) = res X0 X1 X2 b k d := by
  have e19 : idx_main_v16 (idx_main_v19 (ix3 b k d)) = ix2 b k :=
    funext fun a => by match a with | ⟨0, _⟩ => rfl | ⟨1, _⟩ => rfl
  have e20 : idx_main_v17 (idx_main_v18 (idx_main_v20 (ix3 b k d))) = ix2 d k :=
    funext fun a => by match a with | ⟨0, _⟩ => rfl | ⟨1, _⟩ => rfl
  rw [val_main_v22_apply, val_main_v21_apply, val_main_v19_apply, val_main_v16_apply, e19, val_main_v20_apply,
    val_main_v18_apply, val_main_v17_apply, e20, v14_eq, v15_eq]
  rfl

/-- The sum of a cluster row's squares. -/
theorem v24_eq (b : Fin 64) (k : Fin 64) :
    val_main_v24 (F := Ideal) X0 X1 X2 (ix2 b k) = ∑ d : Fin 512, res X0 X1 X2 b k d * res X0 X1 X2 b k d := by
  rw [val_main_v24_apply, val_main_cst_3_apply, Ideal.ofBits_def, Ideal.ofBits_zero_f32, zero_add]
  refine Finset.sum_congr rfl fun d _ => ?_
  have e : idx_main_v24 (ix2 b k) d = ix3 b k d :=
    funext fun a => by match a with | ⟨0, _⟩ => rfl | ⟨1, _⟩ => rfl | ⟨2, _⟩ => rfl
  rw [e, val_main_v23_apply, v22_eq]
  rfl

/-- The square root of a cluster row's stabilised squared length. -/
theorem v28_eq (b : Fin 64) (k : Fin 64) :
    val_main_v28 (F := Ideal) X0 X1 X2 (ix3 b k (⟨0, Nat.one_pos⟩ : Fin 1))
      = Ideal.sqrt (Cert.Vlad.sqLen1 (res X0 X1 X2 b) k) := by
  have e : idx_main_v25 (ix3 b k (⟨0, Nat.one_pos⟩ : Fin 1)) = ix2 b k :=
    funext fun a => by match a with | ⟨0, _⟩ => rfl | ⟨1, _⟩ => rfl
  rw [val_main_v28_apply, val_main_v27_apply, val_main_v25_apply, e, val_main_v26_apply, val_main_cst_4_apply, v24_eq]
  rfl

/-- The residual divided by the square root of its row's squared length. -/
theorem v30_eq (b : Fin 64) (k : Fin 64) (d : Fin 512) :
    val_main_v30 (F := Ideal) X0 X1 X2 (ix3 b k d) = Cert.Vlad.intraDiv (res X0 X1 X2 b) k d := by
  have e : idx_main_v29 (ix3 b k d) = ix3 b k (⟨0, Nat.one_pos⟩ : Fin 1) :=
    funext fun a => by match a with | ⟨0, _⟩ => rfl | ⟨1, _⟩ => rfl | ⟨2, _⟩ => rfl
  rw [val_main_v30_apply, val_main_v29_apply, e, v28_eq, v22_eq]
  rfl

/-- The cluster of position `j` of the channel-major layout. -/
abbrev fk (j : Fin 32768) : Fin 64 := ⟨j.val % 64, Nat.mod_lt _ (by decide)⟩
/-- The channel of position `j` of the channel-major layout. -/
abbrev fd (j : Fin 32768) : Fin 512 := ⟨j.val / 64, by have := j.isLt; omega⟩

/-- The normalised rows transposed and flattened: position `j` holds cluster `j % 64`, channel `j / 64`. -/
theorem v32_eq (b : Fin 64) (j : Fin 32768) :
    val_main_v32 (F := Ideal) X0 X1 X2 (ix2 b j) = fl X0 X1 X2 b j := by
  have e : idx_main_v31 (idx_main_v32 (ix2 b j)) = ix3 b (fk j) (fd j) := funext fun a => Fin.ext (by
    have hb := b.isLt; have hj := j.isLt
    match a with
    | ⟨0, _⟩ => show (b.val * 32768 + j.val) / 32768 = b.val; omega
    | ⟨1, _⟩ => show (b.val * 32768 + j.val) % 64 = j.val % 64; omega
    | ⟨2, _⟩ => show (b.val * 32768 + j.val) / 64 % 512 = j.val / 64; omega)
  rw [val_main_v32_apply, val_main_v31_apply, e, v30_eq]
  rfl

/-- The sum of the whole vector's squares. -/
theorem v34_eq (b : Fin 64) :
    val_main_v34 (F := Ideal) X0 X1 X2 (ix1 b) = ∑ j : Fin 32768, fl X0 X1 X2 b j * fl X0 X1 X2 b j := by
  rw [val_main_v34_apply, val_main_cst_5_apply, Ideal.ofBits_def, Ideal.ofBits_zero_f32, zero_add]
  refine Finset.sum_congr rfl fun j _ => ?_
  have e : idx_main_v34 (ix1 b) j = ix2 b j :=
    funext fun a => by match a with | ⟨0, _⟩ => rfl | ⟨1, _⟩ => rfl
  rw [e, val_main_v33_apply, v32_eq]
  rfl

/-- The square root of the whole vector's stabilised squared length. -/
theorem v38_eq (b : Fin 64) :
    val_main_v38 (F := Ideal) X0 X1 X2 (ix2 b (⟨0, Nat.one_pos⟩ : Fin 1))
      = Ideal.sqrt (Cert.Vlad.sqLen2 (fl X0 X1 X2 b)) := by
  have e : idx_main_v35 (ix2 b (⟨0, Nat.one_pos⟩ : Fin 1)) = ix1 b :=
    funext fun a => by match a with | ⟨0, _⟩ => rfl
  rw [val_main_v38_apply, val_main_v37_apply, val_main_v35_apply, e, val_main_v36_apply, val_main_cst_6_apply, v34_eq]
  unfold Cert.Vlad.sqLen2
  simp only [Ideal.hostUnary_sqrt_def, Ideal.addf_def, Ideal.ofBits_def]

end Stages

/-- The reference's last stage at `(b, j)` is the per-image result of image `b`. -/
theorem ref_eq (X0 : (⟨S64x32x32x512, .f32⟩ : BufTy).Contents (Elt Ideal)) (X1 X2 : (⟨S512x64, .f32⟩ : BufTy).Contents (Elt Ideal))
    (b : Fin 64) (j : Fin 32768) :
    val_main_v40 (F := Ideal) X0 X1 X2 (ix2 b j)
      = Cert.Vlad.outDiv (Cert.Vlad.imgOf X0 b) (Cert.Vlad.matOf X1) (Cert.Vlad.matOf X2) j := by
  have e : idx_main_v39 (ix2 b j) = ix2 b (⟨0, Nat.one_pos⟩ : Fin 1) :=
    funext fun a => by match a with | ⟨0, _⟩ => rfl | ⟨1, _⟩ => rfl
  rw [val_main_v40_apply, val_main_v39_apply, e, v38_eq, v32_eq]
  rfl

end Cert.ReferenceIdeal.RefValue

end
-- ==== Proof.lean ====
/-
  The kernel and the reference compute, for each of the 64 images of the batch, a soft assignment of its 1024 pixels to
  64 clusters, the assignment-weighted residuals to the cluster centres, each cluster's row scaled to unit length, and
  the flattened rows scaled to unit length again (Proof/Spec.lean has the formulas).

  The kernel does one image per grid point, inside a 1024 × 512 view of it, and writes one row of the output; the
  reference does the whole batch with batched contractions and reshapes. Operation by operation the two agree on the
  extended reals (a matrix product into a zero accumulator against a contraction, a lane sum against a host sum, a row
  maximum against a host maximum), except in how they scale: the kernel multiplies by `rsqrt (‖v‖² + ε)`, the reference
  divides by `√(‖v‖² + ε)`. These are one function because `‖v‖² + ε` is positive whatever `v` holds: a square is never
  negative on the extended reals and `ε` is positive, and for a positive `y`, finite or not, `t * rsqrt y = t / √y`.
  So the precondition (finite inputs) is not used, and the idealization rewrote nothing.

  Pieces: Proof/Spec.lean (one image's result in both spellings, and their equality), Proof/KernelBlock.lean (what one
  grid point stores), Proof/KernelArray.lean (the output array and its reshape after the run), Proof/RefValue.lean (the
  reference's result at an index).
-/
import proofs.«110298_j75557064672007_1_alg».proof.Defs
import proofs.«110298_j75557064672007_1_alg».proof.Proof.Gen.Kernel
import proofs.«110298_j75557064672007_1_alg».proof.Proof.Gen.Kernel.Skeleton
import proofs.«110298_j75557064672007_1_alg».proof.Proof.Gen.Kernel.Launch
import proofs.«110298_j75557064672007_1_alg».proof.Proof.Gen.Kernel.Points
import proofs.«110298_j75557064672007_1_alg».proof.Proof.Gen.Kernel.Frame
import proofs.«110298_j75557064672007_1_alg».proof.Proof.Gen.KernelIdeal
import proofs.«110298_j75557064672007_1_alg».proof.Proof.Gen.KernelIdeal.Skeleton
import proofs.«110298_j75557064672007_1_alg».proof.Proof.Gen.KernelIdeal.Launch
import proofs.«110298_j75557064672007_1_alg».proof.Proof.Gen.KernelIdeal.Points
import proofs.«110298_j75557064672007_1_alg».proof.Proof.Gen.KernelIdeal.Frame
import proofs.«110298_j75557064672007_1_alg».proof.Proof.Gen.ReferenceIdeal
import proofs.«110298_j75557064672007_1_alg».proof.Proof.Gen.Pre_finite_inputs
import proofs.«110298_j75557064672007_1_alg».proof.Proof.Gen.ReferenceIdeal.Run
import proofs.«110298_j75557064672007_1_alg».proof.Proof.Gen.ReferenceIdeal.Read
import proofs.«110298_j75557064672007_1_alg».proof.Proof.Spec
import proofs.«110298_j75557064672007_1_alg».proof.Proof.KernelArray
import proofs.«110298_j75557064672007_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The reference's result, as a function of the three argument arrays, is the kernel program's: at `(b, j)` both are
    image `b`'s result at position `j`, the reference's written with quotients by square roots and the kernel's with
    products by reciprocal square roots. -/
theorem reference_eq_result (X0 : (⟨4, ![64, 32, 32, 512]⟩ : Shape).Idx → EReal) (X1 X2 : (⟨2, ![512, 64]⟩ : Shape).Idx → EReal) :
    Cert.ReferenceIdeal.Read.val_main_v40 (F := Ideal) X0 X1 X2 = Cert.KernelIdeal.ArrayValue.result X0 X1 X2 := by
  funext i
  obtain ⟨b, j, rfl⟩ : ∃ (b : Fin 64) (j : Fin 32768), i = ix2 b j := ⟨i 0, i 1, eq_ix2 i⟩
  refine (Cert.ReferenceIdeal.RefValue.ref_eq X0 X1 X2 b j).trans ?_
  rw [← Cert.Vlad.outMul_eq_outDiv]
  rfl

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame is its run with the result dropped
    exact fun m ρ _ =>
      (θ_run Cert.ReferenceIdeal.defs _ _).mono (fun _ h c => (h c).2) (Cert.ReferenceIdeal.Value.run (F := Ideal) m ρ)
  · -- both runs end with the result buffer at one function of the argument arrays
    intro m ρ m' ρ' _ hagree
    refine ⟨_, Cert.KernelIdeal.ArrayValue.run_value m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq, (hagree c).1, (hagree c).2.1, (hagree c).2.2]
    exact reference_eq_result _ _ _⟩

end Cert.Proof

end
